-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x64 : Shape := ⟨2, ![1600000, 64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x64 .f32) (main_arg3 : FVec F S64x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x64 : Shape := ⟨2, ![1600000, 64]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S100000x1 : Shape := ⟨2, ![100000, 1]⟩
abbrev S1700000 : Shape := ⟨1, ![1700000]⟩
abbrev S1700000x64 : Shape := ⟨2, ![1700000, 64]⟩
abbrev S1700000x1 : Shape := ⟨2, ![1700000, 1]⟩
abbrev S1700000x128 : Shape := ⟨2, ![1700000, 128]⟩
abbrev S1703936x128 : Shape := ⟨2, ![1703936, 128]⟩
abbrev S1703936x64 : Shape := ⟨2, ![1703936, 64]⟩
abbrev S1703936 : Shape := ⟨1, ![1703936]⟩
abbrev S1703936x1 : Shape := ⟨2, ![1703936, 1]⟩
abbrev S1x128 : Shape := ⟨2, ![1, 128]⟩
abbrev S4096x128 : Shape := ⟨2, ![4096, 128]⟩
abbrev S4096x64 : Shape := ⟨2, ![4096, 64]⟩
abbrev S4096x1 : Shape := ⟨2, ![4096, 1]⟩

abbrev nBuf : Space → Nat
  | .hbm => 129
  | .vmem => 11
  | .smem => 0
  | _ => 0

abbrev hbmTy0_0 (i : Nat) : BufTy := match i % 128 with
  | 0 => ⟨S100000x128, .f32⟩
  | 1 => ⟨S2x1600000, .i32⟩
  | 2 => ⟨S1600000x64, .f32⟩
  | 3 => ⟨S64x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000x64, .f32⟩
  | 19 => ⟨S1600000x1, .i32⟩
  | 20 => ⟨S100000x64, .f32⟩
  | 21 => ⟨S_, .f32⟩
  | 22 => ⟨S100000, .f32⟩
  | 23 => ⟨S100000, .f32⟩
  | 24 => ⟨S100000x1, .f32⟩
  | 25 => ⟨S100000x64, .f32⟩
  | 26 => ⟨S100000x64, .f32⟩
  | 27 => ⟨S100000, .i32⟩
  | 28 => ⟨S1700000, .i32⟩
  | 29 => ⟨S1700000, .i32⟩
  | 30 => ⟨S1700000x64, .f32⟩
  | 31 => ⟨S_, .f32⟩
  | 32 => ⟨S100000x64, .f32⟩
  | 33 => ⟨S1700000x1, .i32⟩
  | 34 => ⟨S100000x64, .f32⟩
  | 35 => ⟨S_, .f32⟩
  | 36 => ⟨S100000x64, .f32⟩
  | 37 => ⟨S100000x64, .i1⟩
  | 38 => ⟨S_, .f32⟩
  | 39 => ⟨S100000x64, .f32⟩
  | 40 => ⟨S100000x64, .f32⟩
  | 41 => ⟨S_, .f32⟩
  | 42 => ⟨S_, .f32⟩
  | 43 => ⟨S100000x64, .f32⟩
  | 44 => ⟨S100000x64, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x64, .f32⟩
  | 54 => ⟨S1700000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x64, .f32⟩
  | 65 => ⟨S_, .f32⟩
  | 66 => ⟨S1700000, .f32⟩
  | 67 => ⟨S_, .f32⟩
  | 68 => ⟨S100000, .f32⟩
  | 69 => ⟨S1700000x1, .i32⟩
  | 70 => ⟨S100000, .f32⟩
  | 71 => ⟨S_, .f32⟩
  | 72 => ⟨S100000, .f32⟩
  | 73 => ⟨S100000, .i1⟩
  | 74 => ⟨S_, .f32⟩
  | 75 => ⟨S100000, .f32⟩
  | 76 => ⟨S100000, .f32⟩
  | 77 => ⟨S_, .f32⟩
  | 78 => ⟨S_, .f32⟩
  | 79 => ⟨S100000, .f32⟩
  | 80 => ⟨S100000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x128, .f32⟩
  | 109 => ⟨S_, .i32⟩
  | 110 => ⟨S_, .f32⟩
  | 111 => ⟨S1703936x128, .f32⟩
  | 112 => ⟨S_, .i32⟩
  | 113 => ⟨S_, .f32⟩
  | 114 => ⟨S1703936x64, .f32⟩
  | 115 => ⟨S_, .i32⟩
  | 116 => ⟨S_, .f32⟩
  | 117 => ⟨S1703936, .f32⟩
  | 118 => ⟨S1703936x1, .f32⟩
  | 119 => ⟨S1x128, .f32⟩
  | 120 => ⟨S1703936x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x64, .f32⟩
  | .local _ .vmem, ⟨3, _⟩ => ⟨S4096x64, .f32⟩
  | .local _ .vmem, ⟨4, _⟩ => ⟨S4096x1, .f32⟩
  | .local _ .vmem, ⟨5, _⟩ => ⟨S4096x1, .f32⟩
  | .local _ .vmem, ⟨6, _⟩ => ⟨S64x128, .f32⟩
  | .local _ .vmem, ⟨7, _⟩ => ⟨S1x128, .f32⟩
  | .local _ .vmem, ⟨8, _⟩ => ⟨S128x128, .f32⟩
  | .local _ .vmem, ⟨9, _⟩ => ⟨S4096x128, .f32⟩
  | .local _ .vmem, ⟨10, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_c : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_call1_v0 : Ref sig .tc := ⟨.hbm, 78, rfl⟩
abbrev main_call1_v1 : Ref sig .tc := ⟨.hbm, 79, rfl⟩
abbrev main_v52 : Ref sig .tc := ⟨.hbm, 80, rfl⟩
abbrev main_c_15 : Ref sig .tc := ⟨.hbm, 81, rfl⟩
abbrev main_v53 : Ref sig .tc := ⟨.hbm, 82, rfl⟩
abbrev main_v54 : Ref sig .tc := ⟨.hbm, 83, rfl⟩
abbrev main_c_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_19 : Ref sig .tc := ⟨.hbm, 100, rfl⟩
abbrev main_v68 : Ref sig .tc := ⟨.hbm, 101, rfl⟩
abbrev main_v69 : Ref sig .tc := ⟨.hbm, 102, rfl⟩
abbrev main_c_20 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_21 : Ref sig .tc := ⟨.hbm, 109, rfl⟩
abbrev main_call2_v0 : Ref sig .tc := ⟨.hbm, 110, rfl⟩
abbrev main_v75 : Ref sig .tc := ⟨.hbm, 111, rfl⟩
abbrev main_c_22 : Ref sig .tc := ⟨.hbm, 112, rfl⟩
abbrev main_call3_v0 : Ref sig .tc := ⟨.hbm, 113, rfl⟩
abbrev main_v76 : Ref sig .tc := ⟨.hbm, 114, rfl⟩
abbrev main_c_23 : Ref sig .tc := ⟨.hbm, 115, rfl⟩
abbrev main_call4_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_24 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![416], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S1600000_S100000_S1700000_d0 : Shape.Concatenates [S1600000, S100000] S1700000 0
  concatenates_S1600000x64_S100000x64_S1700000x64_d0 : Shape.Concatenates [S1600000x64, S100000x64] S1700000x64 0
  bcast_S1700000_S1700000x1_0 : S1700000.BroadcastsInDim S1700000x1 (![0] : Fin 1 → Fin S1700000x1.rank)
  bcast_S_S1700000 : S_.BroadcastsInDim S1700000 (![] : Fin 0 → Fin S1700000.rank)
  pads_S1700000x128_S1703936x128_039360_000 : S1700000x128.Pads (![0, 0] : Fin 2 → Nat) ![3936, 0] ![0, 0] S1703936x128
  h_S_ : 0 < S_.numel
  pads_S1700000x64_S1703936x64_039360_000 : S1700000x64.Pads (![0, 0] : Fin 2 → Nat) ![3936, 0] ![0, 0] S1703936x64
  pads_S1700000_S1703936_039360 : S1700000.Pads (![0] : Fin 1 → Nat) ![3936] ![0] S1703936
  shapeCasts_S1703936_S1703936x1 : S1703936.ShapeCasts S1703936x1
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  broadcasts_S1x128_S4096x128 : S1x128.Broadcasts S4096x128
  broadcasts_S4096x1_S4096x128 : S4096x1.Broadcasts S4096x128
  slices_S1703936x128_S1700000x128_0_0 : S1703936x128.Slices ![0, 0] S1700000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  scatter_S100000x64_S1600000x1_S1600000x64_1_0_0_1_wf : ScatterDims.WF S100000x64 S1600000x1 S1600000x64 [1] [0] [0] 1
  scatter_S100000x64_S1700000x1_S1700000x64_1_0_0_1_wf : ScatterDims.WF S100000x64 S1700000x1 S1700000x64 [1] [0] [0] 1
  gather_S100000x64_S1700000x1_S1700000x64_1_0_n_n_0_1_164_wf : GatherDims.WF S100000x64 S1700000x1 S1700000x64 [1] [0] [] [0] [] 1 ![1, 64]
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1703936x128.size a
  hwx0_0 : ∀ i : grid0.Coords, EltTy.bits .f32 = 32 ∨ (Rect.block (s := S1703936x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S1703936x64.size a
  hwx0_1 : ∀ i : grid0.Coords, EltTy.bits .f32 = 32 ∨ (Rect.block (s := S1703936x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S1703936x1.size a
  hwx0_2 : ∀ i : grid0.Coords, EltTy.bits .f32 = 32 ∨ (Rect.block (s := S1703936x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S1703936x128.size a
  hwx0_6 : ∀ i : grid0.Coords, EltTy.bits .f32 = 32 ∨ (Rect.block (s := S1703936x128) S4096x128.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v75) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v79) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v80) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x64 : Shape := ⟨2, ![1600000, 64]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S100000x1 : Shape := ⟨2, ![100000, 1]⟩
abbrev S1700000 : Shape := ⟨1, ![1700000]⟩
abbrev S1700000x64 : Shape := ⟨2, ![1700000, 64]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x64, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .f32⟩
  | .hbm, ⟨26, _⟩ => ⟨S100000x64, .f32⟩
  | .hbm, ⟨27, _⟩ => ⟨S100000, .i32⟩
  | .hbm, ⟨28, _⟩ => ⟨S1700000, .i32⟩
  | .hbm, ⟨29, _⟩ => ⟨S1700000, .i32⟩
  | .hbm, ⟨30, _⟩ => ⟨S1700000x64, .f32⟩
  | .hbm, ⟨31, _⟩ => ⟨S_, .f32⟩
  | .hbm, ⟨32, _⟩ => ⟨S100000x64, .f32⟩
  | .hbm, ⟨33, _⟩ => ⟨S1700000x1, .i32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .i1⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S1700000, .f32⟩
  | .hbm, ⟨67, _⟩ => ⟨S_, .f32⟩
  | .hbm, ⟨68, _⟩ => ⟨S100000, .f32⟩
  | .hbm, ⟨69, _⟩ => ⟨S1700000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .i1⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S1700000, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x128, .f32⟩
  | .hbm, ⟨109, _⟩ => ⟨S1700000x128, .f32⟩
  | .hbm, ⟨110, _⟩ => ⟨S1700000x128, .f32⟩
  | .hbm, ⟨111, _⟩ => ⟨S1x128, .f32⟩
  | .hbm, ⟨112, _⟩ => ⟨S1700000x128, .f32⟩
  | .hbm, ⟨113, _⟩ => ⟨S1700000x128, .f32⟩
  | .hbm, ⟨114, _⟩ => ⟨S1700000x128, .f32⟩
  | .hbm, ⟨115, _⟩ => ⟨S1700000x1, .f32⟩
  | .hbm, ⟨116, _⟩ => ⟨S1700000x128, .f32⟩
  | .hbm, ⟨117, _⟩ => ⟨S1700000x128, .f32⟩
  | .hbm, ⟨118, _⟩ => ⟨S_, .f32⟩
  | .hbm, ⟨119, _⟩ => ⟨S100000x128, .f32⟩
  | .hbm, ⟨120, _⟩ => ⟨S1700000x1, .i32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_c : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_call1_v0 : Ref sig .tc := ⟨.hbm, 78, rfl⟩
abbrev main_call1_v1 : Ref sig .tc := ⟨.hbm, 79, rfl⟩
abbrev main_v52 : Ref sig .tc := ⟨.hbm, 80, rfl⟩
abbrev main_c_15 : Ref sig .tc := ⟨.hbm, 81, rfl⟩
abbrev main_v53 : Ref sig .tc := ⟨.hbm, 82, rfl⟩
abbrev main_v54 : Ref sig .tc := ⟨.hbm, 83, rfl⟩
abbrev main_c_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_19 : Ref sig .tc := ⟨.hbm, 100, rfl⟩
abbrev main_v68 : Ref sig .tc := ⟨.hbm, 101, rfl⟩
abbrev main_v69 : Ref sig .tc := ⟨.hbm, 102, rfl⟩
abbrev main_c_20 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S1600000_S100000_S1700000_d0 : Shape.Concatenates [S1600000, S100000] S1700000 0
  concatenates_S1600000x64_S100000x64_S1700000x64_d0 : Shape.Concatenates [S1600000x64, S100000x64] S1700000x64 0
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S128_S1x128_1 : S128.BroadcastsInDim S1x128 (![1] : Fin 1 → Fin S1x128.rank)
  bcast_S1x128_S1700000x128_0_1 : S1x128.BroadcastsInDim S1700000x128 (![0, 1] : Fin 2 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  scatter_S100000x64_S1600000x1_S1600000x64_1_0_0_1_wf : ScatterDims.WF S100000x64 S1600000x1 S1600000x64 [1] [0] [0] 1
  scatter_S100000x64_S1700000x1_S1700000x64_1_0_0_1_wf : ScatterDims.WF S100000x64 S1700000x1 S1700000x64 [1] [0] [0] 1
  gather_S100000x64_S1700000x1_S1700000x64_1_0_n_n_0_1_164_wf : GatherDims.WF S100000x64 S1700000x1 S1700000x64 [1] [0] [] [0] [] 1 ![1, 64]
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  dot_S1700000x64_S64x128_S1700000x128_1_0_0_1_n_n_wf : DotDims.WF S1700000x64 S64x128 S1700000x128 [1] [0] [0] [1] [] []
  dot_S1700000x128_S128x128_S1700000x128_1_0_0_1_n_n_wf : DotDims.WF S1700000x128 S128x128 S1700000x128 [1] [0] [0] [1] [] []
  scatter_S100000x128_S1700000x1_S1700000x128_1_0_0_1_wf : ScatterDims.WF S100000x128 S1700000x1 S1700000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def dot_S1700000x64_S64x128_S1700000x128_1_0_0_1_n_n : DotDims S1700000x64 S64x128 S1700000x128 where
  lhsContracting := [1]
  rhsContracting := [0]
  lhsNonContracting := [0]
  rhsNonContracting := [1]
  lhsBatch := []
  rhsBatch := []
  wf := dot_S1700000x64_S64x128_S1700000x128_1_0_0_1_n_n_wf
def dot_S1700000x128_S128x128_S1700000x128_1_0_0_1_n_n : DotDims S1700000x128 S128x128 S1700000x128 where
  lhsContracting := [1]
  rhsContracting := [0]
  lhsNonContracting := [0]
  rhsNonContracting := [1]
  lhsBatch := []
  rhsBatch := []
  wf := dot_S1700000x128_S128x128_S1700000x128_1_0_0_1_n_n_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RowMsg.lean ====
/-
  One edge's message, as a function of that edge's row data alone: with `n` the edge's scalar weight, `x` the gathered
  node row (128 entries), `e` the normalized edge-attribute row (64 entries), `W₁` the 64×128 edge projection, `b` its
  bias and `W₂` the 128×128 linear map, entry `q` of the message is

      n · Σ_k ((x_k + Σ_l e_l · W₁ l k) + b_k) · W₂ k q

  on the extended reals. Both programs compute exactly this expression, with this grouping, for every edge; nothing
  about the extended reals beyond the expression itself is used.
-/
import Idealize.ShloMosaic.PureOps.Ideal

noncomputable section

namespace Cert.EdgeMsg

/-- Entry `q` of one edge's message from the edge's row data. -/
def rowMsg (n : EReal) (x : Fin 128 → EReal) (e : Fin 64 → EReal) (W₁ : Fin 64 → Fin 128 → EReal) (b : Fin 128 → EReal)
    (W₂ : Fin 128 → Fin 128 → EReal) (q : Fin 128) : EReal :=
  n * ∑ k : Fin 128, ((x k + ∑ l : Fin 64, e l * W₁ l k) + b k) * W₂ k q

/-- The row message of equal row data is equal. -/
theorem rowMsg_congr {n n' : EReal} {x x' : Fin 128 → EReal} {e e' : Fin 64 → EReal} {W₁ W₁' : Fin 64 → Fin 128 → EReal}
    {b b' : Fin 128 → EReal} {W₂ W₂' : Fin 128 → Fin 128 → EReal} (hn : n = n') (hx : x = x') (he : e = e') (h₁ : W₁ = W₁')
    (hb : b = b') (h₂ : W₂ = W₂') (q : Fin 128) : rowMsg n x e W₁ b W₂ q = rowMsg n' x' e' W₁' b' W₂' q := by
  subst hn hx he h₁ hb h₂; rfl

end Cert.EdgeMsg

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Payload.lean ====
/-
  The kernel body's arithmetic at one entry of its 4096×128 output block: row `p`, column `q` of
  `norm · (((x + ea·W₁) + b)·W₂)` is the row message of row `p` of the loaded blocks. The two matrix products
  accumulate into zero, so each is the plain sum over its contracted axis; the narrowing casts are the identity on
  the extended reals; the weight column and the bias row are broadcast along the other axis.
-/
import proofs.«172404_j7430293422231_1_alg».proof.Proof.Gen.KernelIdeal.Skeleton
import proofs.«172404_j7430293422231_1_alg».proof.Proof.RowMsg
import proofs.«172404_j7430293422231_1_alg».proof.Proof.LibMatmulAt
import Idealize.ShloMosaic.Lib.ValueIdx
import Idealize.ShloMosaic.Lib.Pipeline.Value
import Idealize.ShloMosaic.PureOps.Ideal.Laws

noncomputable section

namespace Cert.EdgeMsg

open Idealize.ShloMosaic Idealize.ShloMosaic.TcCoe Idealize.ShloMosaic.ValueIdx Cert.KernelIdeal Cert.KernelIdeal.Gen

/-! ## Where the two products read their operands

Both contract the left operand's second axis with the right operand's first and have no batch axis: output entry
(row, column) with contraction index k reads the left operand at (row, k) and the right at (k, column). -/

theorem proj_lhs0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem proj_lhs1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem proj_rhs0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem proj_rhs1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

theorem lin_lhs0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lin_lhs1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem lin_rhs0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem lin_rhs1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The edge projection `ea · W₁` at an entry. -/
theorem proj_at (l : FVec Ideal S4096x64 .bf16) (r : FVec Ideal S64x128 .bf16) (p : Fin 4096) (q : Fin 128) :
    matmul dot_S4096x64_S64x128_S4096x128_1_0_0_1_n_n none l r (constant (F := Ideal) S4096x128 .f32 0x00000000#32) (ix2 p q)
      = ∑ k : Fin 64, l (ix2 p k) * r (ix2 k q) :=
  MatmulAt.matmul_zero_at dot_S4096x64_S64x128_S4096x128_1_0_0_1_n_n rfl rfl proj_lhs0 proj_lhs1 proj_rhs0 proj_rhs1 none l r p q

/-- The linear map `· W₂` at an entry. -/
theorem lin_at (l : FVec Ideal S4096x128 .bf16) (r : FVec Ideal S128x128 .bf16) (p : Fin 4096) (q : Fin 128) :
    matmul dot_S4096x128_S128x128_S4096x128_1_0_0_1_n_n none l r (constant (F := Ideal) S4096x128 .f32 0x00000000#32) (ix2 p q)
      = ∑ k : Fin 128, l (ix2 p k) * r (ix2 k q) :=
  MatmulAt.matmul_zero_at dot_S4096x128_S128x128_S4096x128_1_0_0_1_n_n rfl rfl lin_lhs0 lin_lhs1 lin_rhs0 lin_rhs1 none l r p q

/-- A column [4096, 1] broadcast along the lanes reads its row's one entry. -/
theorem bcast_col {α : Type} (x : S4096x1.Idx → α) (h : S4096x1.Broadcasts S4096x128) (p : Fin 4096) (q : Fin 128) :
    broadcastTo S4096x128 x h (ix2 p q) = x (ix2 p (0 : Fin 1)) :=
  broadcastTo_apply x h (ix2 p q) (ix2 p (0 : Fin 1)) (fun a => match a with
    | ⟨0, _⟩ => by show p.val = if (4096 : Nat) = 1 then 0 else p.val; rw [if_neg (by decide)]
    | ⟨1, _⟩ => by show 0 = if (1 : Nat) = 1 then 0 else q.val; rw [if_pos rfl])

/-- A row [1, 128] broadcast along the rows reads its column's one entry. -/
theorem bcast_row {α : Type} (x : S1x128.Idx → α) (h : S1x128.Broadcasts S4096x128) (p : Fin 4096) (q : Fin 128) :
    broadcastTo S4096x128 x h (ix2 p q) = x (ix2 (0 : Fin 1) q) :=
  broadcastTo_apply x h (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- Entry (p, q) of the body's stored value is the row message of row `p` of the six loaded blocks. -/
theorem pay_apply (x0 : Vec Ideal S4096x128 .f32) (x1 : Vec Ideal S4096x64 .f32) (x2 : Vec Ideal S4096x1 .f32)
    (x3 : Vec Ideal S64x128 .f32) (x4 : Vec Ideal S1x128 .f32) (x5 : Vec Ideal S128x128 .f32) (p : Fin 4096) (q : Fin 128) :
    k0_pay1 (F := Ideal) x0 x1 x2 x3 x4 x5 (ix2 p q)
      = rowMsg (x2 (ix2 p (0 : Fin 1))) (fun k => x0 (ix2 p k)) (fun l => x1 (ix2 p l)) (fun l k => x3 (ix2 l k))
          (fun k => x4 (ix2 (0 : Fin 1) k)) (fun k j => x5 (ix2 k j)) q := by
  unfold k0_pay1 rowMsg
  simp only [shapeCast_self]
  rw [mulf_apply, lin_at, bcast_col]
  refine congrArg (x2 (ix2 p (0 : Fin 1)) * ·) (Finset.sum_congr rfl fun k _ => ?_)
  rw [truncf_apply, truncf_apply, addf_apply, addf_apply, proj_at, bcast_row]
  rfl

end Cert.EdgeMsg

end
-- ==== Proof.OutArray.lean ====
/-
  The message array the region leaves, as ONE function of the arrays the region finds: grid point `t` writes rows
  4096·t … 4096·t + 4095, each the row message of the same row of the padded inputs, and the 416 points' blocks
  tile all 1,703,936 rows. The three per-edge inputs are cut into the same row blocks as the output; the two weight
  matrices and the bias row are read whole at every point.
-/
import proofs.«172404_j7430293422231_1_alg».proof.Proof.Gen.KernelIdeal.Frame
import proofs.«172404_j7430293422231_1_alg».proof.Proof.Payload
import Idealize.ShloMosaic.Lib.Pipeline.Value

set_option maxRecDepth 16384

noncomputable section

namespace Cert.EdgeMsg

open Idealize.ShloMosaic Idealize.ShloMosaic.TcCoe Idealize.ShloMosaic.ValueIdx Idealize.SL.Sem
open Idealize.ShloMosaic.Pipeline (Dat)
open Cert.KernelIdeal Cert.KernelIdeal.Gen

/-- Every row's message from whole (padded) arrays: row `i 0`, column `i 1`. -/
def outFn (X : S1703936x128.Idx → EReal) (EA : S1703936x64.Idx → EReal) (NR : S1703936x1.Idx → EReal)
    (W1 : S64x128.Idx → EReal) (B : S1x128.Idx → EReal) (W2 : S128x128.Idx → EReal) : S1703936x128.Idx → EReal :=
  fun i => rowMsg (NR (ix2 (i 0) (0 : Fin 1))) (fun k => X (ix2 (i 0) k)) (fun l => EA (ix2 (i 0) l))
    (fun l k => W1 (ix2 l k)) (fun k => B (ix2 (0 : Fin 1) k)) (fun k j => W2 (ix2 k j)) (i 1)

theorem hz : (![0, 0] : Fin 2 → Nat) = fun _ => 0 := funext fun a => by fin_cases a <;> rfl

/-- The block the body stores, at entry (p, q), over any six loaded blocks: the one store covers the block, and every
    load reads its whole buffer. -/
theorem out_block_apply (x0 : Vec Ideal S4096x128 .f32) (x1 : Vec Ideal S4096x64 .f32) (x2 : Vec Ideal S4096x1 .f32)
    (x3 : Vec Ideal S64x128 .f32) (x4 : Vec Ideal S1x128 .f32) (x5 : Vec Ideal S128x128 .f32) (p : Fin 4096) (q : Fin 128) :
    out0_6 (F := Ideal) x0 x1 x2 x3 x4 x5 (ix2 p q)
      = rowMsg (x2 (ix2 p (0 : Fin 1))) (fun k => x0 (ix2 p k)) (fun l => x1 (ix2 p l)) (fun l k => x3 (ix2 l k))
          (fun k => x4 (ix2 (0 : Fin 1) k)) (fun k j => x5 (ix2 k j)) q := by
  unfold out0_6
  rw [View.canon_unit_zero hz]
  simp only [View.ld_unit_zero (S := S4096x128) hz, View.ld_unit_zero (S := S4096x64) hz, View.ld_unit_zero (S := S4096x1) hz,
    View.ld_unit_zero (S := S64x128) hz, View.ld_unit_zero (S := S1x128) hz, View.ld_unit_zero (S := S128x128) hz]
  exact pay_apply x0 x1 x2 x3 x4 x5 p q

/-- Where grid point `t`'s blocks sit: the three per-edge inputs and the output at row block `t`, column block 0; the
    weights and the bias at block (0, 0). Decided over the 416 points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

variable (m : (ℓ : Loc nD τ sig) → Buf (Elt Ideal) ℓ)

/-! ## Each input block as entries of its array -/

/-- Point `t`'s block of the gathered node rows is rows 4096·t … of the array. -/
theorem x_rows (c : Dev nD) (t : Fin cfg0.N) (y : S4096x128.Idx) (i : S1703936x128.Idx)
    (h0 : (i 0).val = 4096 * t.val + (y 0).val) (h1 : (i 1).val = (y 1).val) :
    (iblk m c 0 t : Vec Ideal S4096x128 .f32) y = (V m c main_v75 : S1703936x128.Idx → EReal) i := by
  obtain ⟨⟨e0, e1⟩, -⟩ := idx_facts t
  unfold iblk
  rw [View.read_apply]
  show V m c main_v75 _ = V m c main_v75 _
  refine congrArg (V m c main_v75) (funext fun a => Fin.ext ?_)
  match a with
  | ⟨0, _⟩ => show win0_0.index t (0 : Fin 2) * 4096 + 1 * (y 0).val = (i 0).val; rw [e0, h0]; omega
  | ⟨1, _⟩ => show win0_0.index t (1 : Fin 2) * 128 + 1 * (y 1).val = (i 1).val; rw [e1, h1]; omega

/-- Point `t`'s block of the normalized edge attributes is rows 4096·t … of the array. -/
theorem ea_rows (c : Dev nD) (t : Fin cfg0.N) (y : S4096x64.Idx) (i : S1703936x64.Idx)
    (h0 : (i 0).val = 4096 * t.val + (y 0).val) (h1 : (i 1).val = (y 1).val) :
    (iblk m c 1 t : Vec Ideal S4096x64 .f32) y = (V m c main_v76 : S1703936x64.Idx → EReal) i := by
  obtain ⟨-, ⟨e0, e1⟩, -⟩ := idx_facts t
  unfold iblk
  rw [View.read_apply]
  show V m c main_v76 _ = V m c main_v76 _
  refine congrArg (V m c main_v76) (funext fun a => Fin.ext ?_)
  match a with
  | ⟨0, _⟩ => show win0_1.index t (0 : Fin 2) * 4096 + 1 * (y 0).val = (i 0).val; rw [e0, h0]; omega
  | ⟨1, _⟩ => show win0_1.index t (1 : Fin 2) * 64 + 1 * (y 1).val = (i 1).val; rw [e1, h1]; omega

/-- Point `t`'s block of the edge weights is rows 4096·t … of the column. -/
theorem nrm_rows (c : Dev nD) (t : Fin cfg0.N) (y : S4096x1.Idx) (i : S1703936x1.Idx)
    (h0 : (i 0).val = 4096 * t.val + (y 0).val) (h1 : (i 1).val = (y 1).val) :
    (iblk m c 2 t : Vec Ideal S4096x1 .f32) y = (V m c main_v78 : S1703936x1.Idx → EReal) i := by
  obtain ⟨-, -, ⟨e0, e1⟩, -⟩ := idx_facts t
  unfold iblk
  rw [View.read_apply]
  show V m c main_v78 _ = V m c main_v78 _
  refine congrArg (V m c main_v78) (funext fun a => Fin.ext ?_)
  match a with
  | ⟨0, _⟩ => show win0_2.index t (0 : Fin 2) * 4096 + 1 * (y 0).val = (i 0).val; rw [e0, h0]; omega
  | ⟨1, _⟩ => show win0_2.index t (1 : Fin 2) * 1 + 1 * (y 1).val = (i 1).val; rw [e1, h1]; omega

/-- Every point's block of the edge projection is the whole matrix. -/
theorem w1_whole (c : Dev nD) (t : Fin cfg0.N) (y : S64x128.Idx) :
    (iblk m c 3 t : Vec Ideal S64x128 .f32) y = (V m c main_arg3 : S64x128.Idx → EReal) y := by
  obtain ⟨-, -, -, ⟨e0, e1⟩, -⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

/-- Every point's block of the bias row is the whole row. -/
theorem b_whole (c : Dev nD) (t : Fin cfg0.N) (y : S1x128.Idx) :
    (iblk m c 4 t : Vec Ideal S1x128 .f32) y = (V m c main_v79 : S1x128.Idx → EReal) y := by
  obtain ⟨-, -, -, -, ⟨e0, e1⟩, -⟩ := idx_facts t
  unfold iblk
  rw [View.read_apply]
  show V m c main_v79 _ = V m c main_v79 _
  refine congrArg (V m c main_v79) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Every point's block of the linear map is the whole matrix. -/
theorem w2_whole (c : Dev nD) (t : Fin cfg0.N) (y : S128x128.Idx) :
    (iblk m c 5 t : Vec Ideal S128x128 .f32) y = (V m c main_arg5 : S128x128.Idx → EReal) y := by
  obtain ⟨-, -, -, -, -, ⟨e0, e1⟩, -⟩ := idx_facts t
  unfold iblk
  rw [View.read_apply]
  show V m c main_arg5 _ = V m c main_arg5 _
  refine congrArg (V m c main_arg5) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-! ## The write-back and the cover -/

/-- The six arrays the region finds, as `outFn`'s arguments. -/
abbrev outArr (c : Dev nD) : S1703936x128.Idx → EReal :=
  outFn (V m c main_v75) (V m c main_v76) (V m c main_v78) (V m c main_arg3) (V m c main_v79) (V m c main_arg5)

/-- Entry (p, q) of the block point `t` leaves is the array function at any index `i` lying under it: row 4096·t + p,
    column q. -/
theorem block_entry (c : Dev nD) (t : Fin cfg0.N) (p : Fin 4096) (q : Fin 128) (i : S1703936x128.Idx)
    (hr : (i 0).val = 4096 * t.val + p.val) (hq : (i 1).val = q.val) :
    out0_6 (F := Ideal) (iblk m c 0 t) (iblk m c 1 t) (iblk m c 2 t) (iblk m c 3 t) (iblk m c 4 t) (iblk m c 5 t) (ix2 p q)
      = outArr m c i := by
  refine (out_block_apply (iblk m c 0 t) (iblk m c 1 t) (iblk m c 2 t) (iblk m c 3 t) (iblk m c 4 t) (iblk m c 5 t) p q).trans ?_
  have hq' : q = i 1 := Fin.ext hq.symm
  show rowMsg _ _ _ _ _ _ q = rowMsg _ _ _ _ _ _ (i 1)
  rw [← hq']
  refine rowMsg_congr ?_ ?_ ?_ ?_ ?_ ?_ q
  · exact nrm_rows m c t (ix2 p (0 : Fin 1)) (ix2 (i 0) (0 : Fin 1)) hr rfl
  · funext k; exact x_rows m c t (ix2 p k) (ix2 (i 0) k) hr rfl
  · funext l; exact ea_rows m c t (ix2 p l) (ix2 (i 0) l) hr rfl
  · funext l k; exact w1_whole m c t (ix2 l k)
  · funext k; exact b_whole m c t (ix2 (0 : Fin 1) k)
  · funext k j; exact w2_whole m c t (ix2 k j)

/-- What point `t` writes back is block `t` of `outFn` of the arrays the region finds. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]
  obtain ⟨-, -, -, -, -, -, ⟨e0, e1⟩⟩ := idx_facts t
  funext j
  obtain ⟨p, q, rfl⟩ : ∃ (p : Fin 4096) (q : Fin 128), j = ix2 p q := ⟨j 0, j 1, eq_ix2 j⟩
  rw [View.read_apply]
  exact block_entry m c t p q _
    (by show win0_6.index t (0 : Fin 2) * 4096 + 1 * p.val = 4096 * t.val + p.val; rw [e0]; omega)
    (by show win0_6.index t (1 : Fin 2) * 128 + 1 * q.val = q.val; rw [e1]; omega)

/-- An index of the array is in point `t`'s block iff each coordinate is in the block's range on its axis. -/
theorem mem_blk (t : Fin cfg0.N) (i : S1703936x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v80).slice (win0_6.rect t)).set ↔ _
  rw [View.set_slice_whole, Rect.mem_set_unit]
  exact Iff.rfl

/-- Row r lies in the block of point r / 4096, and every point writes back: the 416 blocks cover the array. -/
theorem covered (i : S1703936x128.Idx) :
    ∃ t : Fin cfg0.N, (cfg0.win 6).flush t = true ∧ i ∈ ((cfg0.win 6).blk t).view.set := by
  have hi0 : (i 0).val < 1703936 := (i 0).isLt
  have hi1 : (i 1).val < 128 := (i 1).isLt
  have hN : cfg0.N = 416 := N_0
  obtain ⟨t, ht⟩ : ∃ t : Fin cfg0.N, t.val = (i 0).val / 4096 := ⟨⟨(i 0).val / 4096, by rw [hN]; omega⟩, rfl⟩
  obtain ⟨-, -, -, -, -, -, ⟨e0, e1⟩⟩ := idx_facts t
  refine ⟨t, flush0_6 t, ?_⟩
  rw [mem_blk]
  intro a
  match a with
  | ⟨0, _⟩ =>
    show win0_6.index t (0 : Fin 2) * 4096 ≤ (i 0).val ∧ (i 0).val < win0_6.index t (0 : Fin 2) * 4096 + 4096
    rw [e0, ht]; omega
  | ⟨1, _⟩ =>
    show win0_6.index t (1 : Fin 2) * 128 ≤ (i 1).val ∧ (i 1).val < win0_6.index t (1 : Fin 2) * 128 + 128
    rw [e1]; omega

/-- The output array after the region is `outFn` of the six arrays the region finds. -/
theorem out_final (c : Dev nD) :
    (dats m 0 c).arrAt 6 cfg0.N
      = outFn (V m c main_v75) (V m c main_v76) (V m c main_v78) (V m c main_arg3) (V m c main_v79) (V m c main_arg5) :=
  (dats m 0 c).arrAt_eq_of_cover 6 (outArr m c) (fun t _ => flushed_eq m c t) covered

end Cert.EdgeMsg

end
-- ==== Proof.RefMsg.lean ====
/-
  The reference's per-edge message read at one entry: row `r`, column `q` of `norm[:, None] · ((x_j + ea·W₁ + b)·W₂)`
  is the row message of row `r` of the reference's own gathered rows, normalized edge attributes and edge weights.
  Each stage is read at an index by its read lemma; the two products are sums over their contracted axes, the weight
  and the two biases broadcasts.
-/
import proofs.«172404_j7430293422231_1_alg».proof.Proof.RefRead
import proofs.«172404_j7430293422231_1_alg».proof.Proof.RowMsg

noncomputable section

namespace Cert.EdgeMsg

open Idealize.ShloMosaic Idealize.ShloMosaic.TcCoe Idealize.ShloMosaic.ValueIdx Cert.ReferenceIdeal Cert.ReferenceIdeal.Read

/-- Entry (r, q) of the reference's message array is the row message of edge `r`'s row data. -/
theorem ref_msg_apply (x0 : (⟨S100000x128, .f32⟩ : BufTy).Contents (Elt Ideal)) (x1 : (⟨S2x1600000, .i32⟩ : BufTy).Contents (Elt Ideal))
    (x2 : (⟨S1600000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (r : Fin 1700000) (q : Fin 128) :
    val_main_v83 (F := Ideal) x0 x1 x2 x3 x4 x5 (ix2 r q)
      = rowMsg (val_main_v67 (F := Ideal) x1 (ix1 r)) (fun k => val_main_v74 (F := Ideal) x0 x1 (ix2 r k))
          (fun l => val_main_v43 (F := Ideal) x1 x2 (ix2 r l)) (fun l k => x3 (ix2 l k)) (fun k => x4 (ix1 k))
          (fun k j => x5 (ix2 k j)) q := by
  unfold rowMsg
  -- the weight: two broadcasts of the edge's scalar
  have ew : idx_main_v81 (idx_main_v82 (ix2 r q)) = ix1 r := funext fun a => Fin.ext (by match a with | ⟨0, _⟩ => rfl)
  -- the second product reads (r, k) and (k, q)
  have el2 : ∀ k : Fin 128, lidx_main_v80 (ix2 r q) k = ix2 r k := fun k => funext fun a => Fin.ext (by
    match a with | ⟨0, _⟩ => rfl | ⟨1, _⟩ => rfl)
  have er2 : ∀ k : Fin 128, ridx_main_v80 (ix2 r q) k = ix2 k q := fun k => funext fun a => Fin.ext (by
    match a with | ⟨0, _⟩ => rfl | ⟨1, _⟩ => rfl)
  rw [val_main_v83_apply, val_main_v82_apply, val_main_v81_apply, val_main_v80_apply, ew]
  simp only [el2, er2]
  refine congrArg (val_main_v67 (F := Ideal) x1 (ix1 r) * ·) (Finset.sum_congr rfl fun k _ => ?_)
  -- the bias: two broadcasts of entry k; the first product reads (r, l) and (l, k)
  have eb : idx_main_v77 (idx_main_v78 (ix2 r k)) = ix1 k := funext fun a => Fin.ext (by match a with | ⟨0, _⟩ => rfl)
  have el1 : ∀ l : Fin 64, lidx_main_v75 (ix2 r k) l = ix2 r l := fun l => funext fun a => Fin.ext (by
    match a with | ⟨0, _⟩ => rfl | ⟨1, _⟩ => rfl)
  have er1 : ∀ l : Fin 64, ridx_main_v75 (ix2 r k) l = ix2 l k := fun l => funext fun a => Fin.ext (by
    match a with | ⟨0, _⟩ => rfl | ⟨1, _⟩ => rfl)
  rw [val_main_v79_apply, val_main_v78_apply, val_main_v77_apply, val_main_v76_apply, val_main_v75_apply, eb]
  simp only [el1, er1]
  rfl

end Cert.EdgeMsg

end
-- ==== Proof.Bridge.lean ====
/-
  The first 1,700,000 rows of the kernel's message array are the reference's message array: a row below 1,700,000 of a
  zero-padded array is the unpadded array's row, the column reshape of the weights and the row reshape of the bias
  move no entry, and then both sides are the same row message of the same row data. The 3,936 padding rows are cut
  off and never read.
-/
import proofs.«172404_j7430293422231_1_alg».proof.Proof.OutArray
import proofs.«172404_j7430293422231_1_alg».proof.Proof.RefMsg
import Idealize.ShloMosaic.Lib.KernelVsHost

set_option maxRecDepth 16384

noncomputable section

namespace Cert.EdgeMsg

open Idealize.ShloMosaic Idealize.ShloMosaic.TcCoe Idealize.ShloMosaic.ValueIdx
open Cert.KernelIdeal Cert.KernelIdeal.Gen

/-- The kernel's message array over padded inputs, cut back to the real edges, is the reference's message array. -/
theorem slice_outFn (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S1600000x64, .f32⟩ : BufTy).Contents (Elt Ideal))
    (x3 : (⟨Cert.ReferenceIdeal.S64x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (z : (⟨S_, .f32⟩ : BufTy).Contents (Elt Ideal)) :
    extractStridedSlice S1700000x128 ![0, 0]
      (outFn
        (pad S1703936x128 ![0, 0] ![3936, 0] ![0, 0] (Cert.ReferenceIdeal.Read.val_main_v74 (F := Ideal) x0 x1) z
          pads_S1700000x128_S1703936x128_039360_000 h_S_)
        (pad S1703936x64 ![0, 0] ![3936, 0] ![0, 0] (Cert.ReferenceIdeal.Read.val_main_v43 (F := Ideal) x1 x2) z
          pads_S1700000x64_S1703936x64_039360_000 h_S_)
        (shapeCast S1703936x1 (pad S1703936 ![0] ![3936] ![0] (Cert.ReferenceIdeal.Read.val_main_v67 (F := Ideal) x1) z
          pads_S1700000_S1703936_039360 h_S_) shapeCasts_S1703936_S1703936x1)
        x3 (shapeCast S1x128 x4 shapeCasts_S128_S1x128) x5)
      slices_S1703936x128_S1700000x128_0_0
    = Cert.ReferenceIdeal.Read.val_main_v83 (F := Ideal) x0 x1 x2 x3 x4 x5 := by
  funext i
  obtain ⟨r, q, rfl⟩ : ∃ (r : Fin 1700000) (q : Fin 128), i = ix2 r q := ⟨i 0, i 1, eq_ix2 i⟩
  have hr : r.val < 1700000 := r.isLt
  -- the same row of the padded arrays
  obtain ⟨r', hr'⟩ : ∃ r' : Fin 1703936, r'.val = r.val := ⟨⟨r.val, by omega⟩, rfl⟩
  rw [extractStridedSlice_apply ![0, 0] _ slices_S1703936x128_S1700000x128_0_0 (ix2 r q) (ix2 r' q) (fun a => match a with
    | ⟨0, _⟩ => by show r'.val = 0 + r.val; omega
    | ⟨1, _⟩ => by show q.val = 0 + q.val; omega), ref_msg_apply]
  show rowMsg _ _ _ _ _ _ q = _
  refine rowMsg_congr ?_ ?_ ?_ ?_ ?_ ?_ q
  · -- the weight: the column reshape keeps the row-major position, and row r is inside the padded array
    refine (shapeCast_apply _ shapeCasts_S1703936_S1703936x1 (ix2 r' (0 : Fin 1)) (ix1 r') (by
      rw [Shape.rowMajor_val_one, Shape.rowMajor_val_two]; show r'.val = r'.val * 1 + 0; omega)).trans ?_
    exact pad_apply_of_inside ![0] ![3936] ![0] _ z pads_S1700000_S1703936_039360 h_S_ (ix1 r') (ix1 r) (fun a => match a with
      | ⟨0, _⟩ => by show r'.val = 0 + r.val * (0 + 1); omega)
  · funext k
    exact pad_apply_of_inside ![0, 0] ![3936, 0] ![0, 0] _ z pads_S1700000x128_S1703936x128_039360_000 h_S_ (ix2 r' k) (ix2 r k)
      (fun a => match a with
        | ⟨0, _⟩ => by show r'.val = 0 + r.val * (0 + 1); omega
        | ⟨1, _⟩ => by show k.val = 0 + k.val * (0 + 1); omega)
  · funext l
    exact pad_apply_of_inside ![0, 0] ![3936, 0] ![0, 0] _ z pads_S1700000x64_S1703936x64_039360_000 h_S_ (ix2 r' l) (ix2 r l)
      (fun a => match a with
        | ⟨0, _⟩ => by show r'.val = 0 + r.val * (0 + 1); omega
        | ⟨1, _⟩ => by show l.val = 0 + l.val * (0 + 1); omega)
  · rfl
  · funext k
    exact shapeCast_apply x4 shapeCasts_S128_S1x128 (ix2 (0 : Fin 1) k) (ix1 k) (by
      rw [Shape.rowMajor_val_one, Shape.rowMajor_val_two]; show k.val = 0 * 128 + k.val; omega)
  · rfl

end Cert.EdgeMsg

end
-- ==== Proof.EntryArrays.lean ====
/-
  The arrays the region finds, as the reference's own stages of the arguments: the kernel's host prefix is the
  reference's, operation for operation, followed by zero-padding of the three per-edge arrays to 1,703,936 rows and two
  reshapes.
-/
import proofs.«172404_j7430293422231_1_alg».proof.Proof.Gen.KernelIdeal.Frame
import proofs.«172404_j7430293422231_1_alg».proof.Proof.RefRead

set_option maxRecDepth 16384

noncomputable section

namespace Cert.EdgeMsg

open Idealize.ShloMosaic Idealize.ShloMosaic.TcCoe Idealize.SL.Sem Idealize.ShloMosaic.StableHlo
open Cert.KernelIdeal Cert.KernelIdeal.Gen

variable {F : FTy → Type} [FloatOps F] (m : (ℓ : Loc nD τ sig) → Buf (Elt F) ℓ)

/-- Opens the fold of the host operations before the region at one buffer: what is left is an equation between the
    operations' composed term of the launch contents and the stated one. -/
macro "entry_fold" : tactic => `(tactic| (
  dsimp only [V, V0]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp))

/-- The padding value: the integer zero converted to a float. -/
abbrev padv : (⟨S_, .f32⟩ : BufTy).Contents (Elt F) := sitofp (F := F) .f32 (constantI S_ 32 0#32)

set_option maxHeartbeats 4000000 in
/-- Window 0's array: the gathered node rows, padded. -/
theorem entry_x (c : Dev nD) :
    V m c main_v75 = pad S1703936x128 ![0, 0] ![3936, 0] ![0, 0]
      (Cert.ReferenceIdeal.Read.val_main_v74 (F := F) (m ((c : Thread nD τ).loc main_arg0)) (m ((c : Thread nD τ).loc main_arg1)))
      (padv (F := F)) pads_S1700000x128_S1703936x128_039360_000 h_S_ := by
  entry_fold
  rfl

set_option maxHeartbeats 4000000 in
/-- Window 1's array: the normalized edge attributes, padded. -/
theorem entry_ea (c : Dev nD) :
    V m c main_v76 = pad S1703936x64 ![0, 0] ![3936, 0] ![0, 0]
      (Cert.ReferenceIdeal.Read.val_main_v43 (F := F) (m ((c : Thread nD τ).loc main_arg1)) (m ((c : Thread nD τ).loc main_arg2)))
      (padv (F := F)) pads_S1700000x64_S1703936x64_039360_000 h_S_ := by
  entry_fold
  rfl

set_option maxHeartbeats 4000000 in
/-- Window 2's array: the edge weights, padded and reshaped to a column. -/
theorem entry_nrm (c : Dev nD) :
    V m c main_v78 = shapeCast S1703936x1 (pad S1703936 ![0] ![3936] ![0]
      (Cert.ReferenceIdeal.Read.val_main_v67 (F := F) (m ((c : Thread nD τ).loc main_arg1)))
      (padv (F := F)) pads_S1700000_S1703936_039360 h_S_) shapeCasts_S1703936_S1703936x1 := by
  entry_fold
  rfl

set_option maxHeartbeats 4000000 in
/-- Window 4's array: the edge bias as a row. -/
theorem entry_b (c : Dev nD) :
    V m c main_v79 = shapeCast S1x128 (m ((c : Thread nD τ).loc main_arg4)) shapeCasts_S128_S1x128 := by
  entry_fold
  rfl

set_option maxHeartbeats 4000000 in
/-- The target-node indices the lines after the region scatter by. -/
theorem entry_col (c : Dev nD) :
    V m c main_v18 = Cert.ReferenceIdeal.Read.val_main_v18 (F := F) (m ((c : Thread nD τ).loc main_arg1)) := by
  entry_fold
  rfl

end Cert.EdgeMsg

end
-- ==== Proof.KernelRun.lean ====
/-
  The kernel's run with its result named: after the region the remaining lines cut the message array back to the
  1,700,000 real edges, scatter-add the rows by target node into zeros and add the output bias — the reference's own
  last lines, applied to the reference's own message array and target indices.
-/
import proofs.«172404_j7430293422231_1_alg».proof.Proof.Bridge
import proofs.«172404_j7430293422231_1_alg».proof.Proof.EntryArrays

set_option maxRecDepth 16384

noncomputable section

namespace Cert.EdgeMsg

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- What the lines after the region leave in the result buffer is the reference's result of the same arguments. -/
theorem tail_value (c : Dev nD) :
    Pipeline.afterTail₀ cfgs (dats m) 0 (V0 m) [hostOps1] c main_v87
      = Cert.ReferenceIdeal.Read.val_main_v89 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  unfold Pipeline.afterTail₀
  show StableHlo.after hostOps1 _ (Proc.devRef .tc main_v87) = _
  after_results
  -- the three buffers the last lines read: the target indices and the output bias as the region found them, the
  -- message array as the region left it
  have hcol : Pipeline.withArrays (cfgs 0).spec c (V0 m c) (fun w => (dats m 0 c).arrAt w (cfgs 0).N) (Proc.devRef .tc main_v18)
      = Cert.ReferenceIdeal.Read.val_main_v18 (F := Ideal) (m ((c : Thread nD τ).loc main_arg1)) :=
    (Pipeline.withArrays_of_ne _ c (V0 m c) _ main_v18 (by exact (by decide : ∀ w, Pipeline.arrRef spec0 w ≠ main_v18))).trans
      (entry_col m c)
  have hbias : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  have hmsg : Pipeline.withArrays (cfgs 0).spec c (V0 m c) (fun w => (dats m 0 c).arrAt w (cfgs 0).N) (Proc.devRef .tc main_v80)
      = outFn (V m c main_v75) (V m c main_v76) (V m c main_v78) (V m c main_arg3) (V m c main_v79) (V m c main_arg5) :=
    (Pipeline.withArrays_arr spec0 launch0.win.arr_inj c (V0 m c) _ 6).trans (out_final m c)
  rw [hcol, hbias, hmsg, entry_x, entry_ea, entry_nrm, entry_b, V_main_arg3, V_main_arg5, slice_outFn]
  rfl

/-- Every weakly fair execution of the kernel's program ends with the result buffer at the reference's result of the
    arguments, and the arguments unchanged. -/
theorem kernel_run : θ_run defs (onTc (τ := τ) (main (F := Ideal))) ⟨m, fun _ => 0, ρ⟩ (fun r => ∀ c : Dev nD,
      r.2.mem ((c.tc : Thread nD τ).loc main_v87)
        = Cert.ReferenceIdeal.Read.val_main_v89 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v87 (Pipeline.mem_restRefs_of main_v87 (by decide) (by decide))).trans (tail_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans ((((dats m) 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.EdgeMsg

end
-- ==== Proof.lean ====
/-
  A graph convolution's edge messages, aggregated by target node. Both programs build, by the same host operations, the
  self-looped edge list, the degree-normalized edge attributes `ea`, the scalar edge weights `norm` and the gathered
  node rows `x_j`; both end by scatter-adding the per-edge messages by target node into zeros and adding the output
  bias. In between, the reference computes every edge's message `norm · (((x_j + ea·W₁) + b)·W₂)` by two whole matrix
  products, while the kernel pads the three per-edge arrays with 3,936 zero rows to 416 blocks of 4096 rows, computes
  the same expression block by block (both products accumulated into zero) and cuts the padding rows off again.

  On the extended reals the two are the same function of the arguments with no algebra at all: entry (r, q) of either
  message array is `rowMsg` (Proof/RowMsg.lean) of edge r's row data — the same sum, with the same grouping and the same
  order of the factors — and a row below 1,700,000 of a padded array is the unpadded row. So the finiteness
  precondition is never opened.

  The three frames: the two kernel programs' are the frame certificates of their one region; the reference has no
  kernel and its frame is its run with the result dropped. The idealization rewrote nothing, so `preserves` is `True`.
-/
import proofs.«172404_j7430293422231_1_alg».proof.Defs
import proofs.«172404_j7430293422231_1_alg».proof.Proof.Gen.Kernel
import proofs.«172404_j7430293422231_1_alg».proof.Proof.Gen.Kernel.Skeleton
import proofs.«172404_j7430293422231_1_alg».proof.Proof.Gen.Kernel.Launch
import proofs.«172404_j7430293422231_1_alg».proof.Proof.Gen.Kernel.Points
import proofs.«172404_j7430293422231_1_alg».proof.Proof.Gen.Kernel.Frame
import proofs.«172404_j7430293422231_1_alg».proof.Proof.Gen.KernelIdeal
import proofs.«172404_j7430293422231_1_alg».proof.Proof.Gen.KernelIdeal.Skeleton
import proofs.«172404_j7430293422231_1_alg».proof.Proof.Gen.KernelIdeal.Launch
import proofs.«172404_j7430293422231_1_alg».proof.Proof.Gen.KernelIdeal.Points
import proofs.«172404_j7430293422231_1_alg».proof.Proof.Gen.KernelIdeal.Frame
import proofs.«172404_j7430293422231_1_alg».proof.Proof.Gen.ReferenceIdeal
import proofs.«172404_j7430293422231_1_alg».proof.Proof.Gen.Pre_finite_inputs
import proofs.«172404_j7430293422231_1_alg».proof.Proof.RefRun
import proofs.«172404_j7430293422231_1_alg».proof.Proof.RefRead
import proofs.«172404_j7430293422231_1_alg».proof.Proof.KernelRun
import Idealize.ShloMosaic.Adequacy
import Idealize.ShloMosaic.Init

noncomputable section

namespace Cert.Proof

open Idealize.ShloMosaic Idealize.SL.Sem

/-- From memories agreeing on the arguments both programs end with the result buffer at the reference's last stage of
    the arguments: the kernel's run names it so (`kernel_run`), and the reference's run ends at its own composed term,
    which is that stage. -/
theorem algebraic : Cert.algebraic_KernelIdeal_ReferenceIdeal := by
  intro m ρ m' ρ' _ hagree
  refine ⟨_, Cert.EdgeMsg.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
